-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x16 .f32) (main_arg3 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x16 : Shape := ⟨2, ![4096, 16]⟩
abbrev S16x4096 : Shape := ⟨2, ![16, 4096]⟩
abbrev S2048x512 : Shape := ⟨2, ![2048, 512]⟩
abbrev S1024x512 : Shape := ⟨2, ![1024, 512]⟩
abbrev S1024x16 : Shape := ⟨2, ![1024, 16]⟩
abbrev S16x512 : Shape := ⟨2, ![16, 512]⟩
abbrev S2048x1024 : Shape := ⟨2, ![2048, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1024x16, .f32⟩
  | .local _ .vmem, ⟨5, _⟩ => ⟨S1024x16, .f32⟩
  | .local _ .vmem, ⟨6, _⟩ => ⟨S16x512, .f32⟩
  | .local _ .vmem, ⟨7, _⟩ => ⟨S16x512, .f32⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S16x512_S16x512_0_0 : ∀ a, (![0, 0] : Fin 2 → Nat) a + S16x512.size a ≤ S16x512.size a
  h_S16x512 : 0 < S16x512.numel
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  dot_S1024x16_S16x512_S1024x512_1_0_0_1_n_n_wf : DotDims.WF S1024x16 S16x512 S1024x512 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x16 : Shape := ⟨2, ![4096, 16]⟩
abbrev S16x4096 : Shape := ⟨2, ![16, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S4096x16_S16x4096_S4096x4096_1_0_0_1_n_n_wf : DotDims.WF S4096x16 S16x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LoraSpec.lean ====
/-
  The low-rank-corrected linear map, entry by entry, and the one law that joins a K-tiled evaluation to it.

  For x [8192,4096], W [4096,4096], A [4096,16], B [16,4096] the result at (p, q) is
      ∑ k, x (p, k) · (W (q, k) + ∑ r, A (q, r) · B (r, k)),
  row p of x against row q of the corrected weight W + A·B. A sum over the 4096 contracted coordinates is the sum,
  over the eight tiles of 512 consecutive coordinates, of each tile's sum: coordinate 512·s + k is coordinate k of
  tile s. That is a re-indexing of one finite sum in a commutative monoid — nothing is distributed or cancelled,
  so it holds on the extended reals without any finiteness.
-/
import Idealize.ShloMosaic.Lib.ValueIdx
import Idealize.ShloMosaic.PureOps.Ideal.Laws

noncomputable section

namespace LoraSpec

open Idealize.ShloMosaic Idealize.ShloMosaic.ValueIdx
open scoped BigOperators

/-- Coordinate `k` of tile `s` among `T` tiles of `K` consecutive coordinates. -/
abbrev tileCoord {T K : Nat} (s : Fin T) (k : Fin K) : Fin (T * K) :=
  ⟨K * s.val + k.val, by
    have hs := s.isLt; have hk := k.isLt
    calc K * s.val + k.val < K * s.val + K := by omega
      _ = K * (s.val + 1) := by ring
      _ ≤ K * T := Nat.mul_le_mul_left K hs
      _ = T * K := Nat.mul_comm K T⟩

/-- A sum over `T · K` coordinates, tile by tile. -/
theorem sum_tiles {β : Type*} [AddCommMonoid β] (T K : Nat) (f : Fin (T * K) → β) :
    ∑ c : Fin (T * K), f c = ∑ s : Fin T, ∑ k : Fin K, f (tileCoord s k) := by
  rw [← Equiv.sum_comp (finProdFinEquiv (m := T) (n := K)) f, Fintype.sum_prod_type]
  refine Finset.sum_congr rfl fun s _ => Finset.sum_congr rfl fun k _ => congrArg f (Fin.ext ?_)
  show k.val + K * s.val = K * s.val + k.val
  omega

/-- One contracted coordinate's term of entry (p, q): x (p, k) times the corrected weight at (q, k). -/
def term (X : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (p : Fin 8192) (q : Fin 4096) (k : Fin 4096) : EReal :=
  X (ix2 p k) * (W (ix2 q k) + ∑ r : Fin 16, A (ix2 q r) * B (ix2 r k))

/-- Entry (p, q) of x · (W + A·B)ᵀ. -/
def lora (X : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (p : Fin 8192) (q : Fin 4096) : EReal :=
  ∑ k : Fin 4096, term X W A B p q k

/-- The entry as the sum of its eight K-tiles' sums. -/
theorem lora_tiles (X : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (p : Fin 8192) (q : Fin 4096) :
    lora X W A B p q = ∑ s : Fin 8, ∑ k : Fin 512, term X W A B p q (tileCoord (T := 8) (K := 512) s k) :=
  sum_tiles 8 512 (term X W A B p q)

/-- The whole result array: at index `i`, the entry at `i`'s two coordinates. -/
def out (X : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal) :
    (⟨2, ![8192, 4096]⟩ : Shape).Idx → EReal :=
  fun i => lora X W A B ⟨(i 0).val, idx2_lt0 i⟩ ⟨(i 1).val, idx2_lt1 i⟩

end LoraSpec

end
-- ==== Proof.RefRead.lean ====
/-
  The reference, read at an index, is the specification.

  The reference forms A·B [4096,4096] (entry (n, k) = ∑ r, A (n, r) · B (r, k)), adds W, transposes, and multiplies x by
  the transpose: entry (p, q) = ∑ k, x (p, k) · T (k, q) with T (k, q) = (W + A·B) (q, k). Reading the four operations at
  an index, outermost first, gives exactly the specification's sum, term by term.
-/
import proofs.«136592_j76072460747085_1_alg».proof.Proof.Gen.ReferenceIdeal.Read
import proofs.«136592_j76072460747085_1_alg».proof.Proof.LoraSpec

noncomputable section

namespace Cert.ReferenceIdeal.RefValue

open Cert.ReferenceIdeal Cert.ReferenceIdeal.Gen Cert.ReferenceIdeal.Read Idealize.ShloMosaic Idealize.ShloMosaic.ValueIdx
open scoped BigOperators

/-- The reference's result at (p, q) is the specification's entry. -/
theorem result_apply (X : (⟨S8192x4096, .f32⟩ : BufTy).Contents (Elt Ideal)) (W : (⟨S4096x4096, .f32⟩ : BufTy).Contents (Elt Ideal))
    (A : (⟨S4096x16, .f32⟩ : BufTy).Contents (Elt Ideal)) (B : (⟨S16x4096, .f32⟩ : BufTy).Contents (Elt Ideal)) (i : S8192x4096.Idx) :
    val_main_v3 (F := Ideal) X W A B i = LoraSpec.out X W A B i := by
  rw [val_main_v3_apply]
  unfold LoraSpec.out LoraSpec.lora LoraSpec.term
  refine Finset.sum_congr rfl fun k _ => ?_
  rw [val_main_v2_apply, val_main_v1_apply, val_main_v0_apply]
  have e1 : lidx_main_v3 i k = ix2 (⟨(i 0).val, idx2_lt0 i⟩ : Fin 8192) k := funext fun a => match a with | ⟨0, _⟩ => rfl | ⟨1, _⟩ => rfl
  have e2 : idx_main_v2 (ridx_main_v3 i k) = ix2 (⟨(i 1).val, idx2_lt1 i⟩ : Fin 4096) k := funext fun a => match a with | ⟨0, _⟩ => rfl | ⟨1, _⟩ => rfl
  have e3 : ∀ r : Fin 16, lidx_main_v0 (ix2 (⟨(i 1).val, idx2_lt1 i⟩ : Fin 4096) k) r = ix2 (⟨(i 1).val, idx2_lt1 i⟩ : Fin 4096) r := fun r => funext fun a => match a with | ⟨0, _⟩ => rfl | ⟨1, _⟩ => rfl
  have e4 : ∀ r : Fin 16, ridx_main_v0 (ix2 (⟨(i 1).val, idx2_lt1 i⟩ : Fin 4096) k) r = ix2 r k := fun r => funext fun a => match a with | ⟨0, _⟩ => rfl | ⟨1, _⟩ => rfl
  rw [e1, e2]
  simp only [e3, e4, Ideal.addf_def]

end Cert.ReferenceIdeal.RefValue

end
-- ==== Proof.Blocks.lean ====
/-
  Where each input window's block sits in its array.

  The grid is 4 × 4 × 8; point t has coordinates (t / 32, t / 8 % 4, t % 8) = (i, j, s). The x window's block at t is
  rows 2048·i …, columns 512·s … of x; the weight window's is rows 1024·j …, columns 512·s … of W; the A window's is
  rows 1024·j … of A (all 16 columns); the B window's is columns 512·s … of B (all 16 rows). So a block's entry at a
  local index is the array's entry at  block index × block size + local coordinate  on each axis.
-/
import proofs.«136592_j76072460747085_1_alg».proof.Proof.Gen.KernelIdeal.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The printed index maps of the four input windows, decided over the grid's 128 points. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = 0
    ∧ win0_3.index t (0 : Fin 2) = 0 ∧ win0_3.index t (1 : Fin 2) = t.val % 8 :=
  (by decide +kernel : ∀ t : Fin grid0.N, _)

/-- The x block at point t, at (a, k): x at row 2048·(t / 32) + a, column 512·(t % 8) + k. -/
theorem xblk_apply (c : Dev nD) (t : Fin cfg0.N) (a : Fin 2048) (k : Fin 512) (P : Fin 8192) (K : Fin 4096)
    (hP : P.val = 2048 * (t.val / 32) + a.val) (hK : K.val = 512 * (t.val % 8) + k.val) :
    (iblk m c 0 t : Vec Ideal S2048x512 .f32) (ix2 a k) = m ((c : Thread nD τ).loc main_arg0) (ix2 P K) := by
  obtain ⟨e0, e1, -⟩ := idx_facts t
  unfold iblk
  rw [View.read_apply]
  show m ((c : Thread nD τ).loc main_arg0) _ = m ((c : Thread nD τ).loc main_arg0) _
  refine congrArg _ (funext fun d => Fin.ext ?_)
  match d with
  | ⟨0, _⟩ => show win0_0.index t (0 : Fin 2) * 2048 + 1 * a.val = P.val; rw [e0, hP]; omega
  | ⟨1, _⟩ => show win0_0.index t (1 : Fin 2) * 512 + 1 * k.val = K.val; rw [e1, hK]; omega

/-- The weight block at point t, at (b, k): W at row 1024·(t / 8 % 4) + b, column 512·(t % 8) + k. -/
theorem wblk_apply (c : Dev nD) (t : Fin cfg0.N) (b : Fin 1024) (k : Fin 512) (Q : Fin 4096) (K : Fin 4096)
    (hQ : Q.val = 1024 * (t.val / 8 % 4) + b.val) (hK : K.val = 512 * (t.val % 8) + k.val) :
    (iblk m c 1 t : Vec Ideal S1024x512 .f32) (ix2 b k) = m ((c : Thread nD τ).loc main_arg1) (ix2 Q K) := by
  obtain ⟨-, -, e0, e1, -⟩ := idx_facts t
  unfold iblk
  rw [View.read_apply]
  show m ((c : Thread nD τ).loc main_arg1) _ = m ((c : Thread nD τ).loc main_arg1) _
  refine congrArg _ (funext fun d => Fin.ext ?_)
  match d with
  | ⟨0, _⟩ => show win0_1.index t (0 : Fin 2) * 1024 + 1 * b.val = Q.val; rw [e0, hQ]; omega
  | ⟨1, _⟩ => show win0_1.index t (1 : Fin 2) * 512 + 1 * k.val = K.val; rw [e1, hK]; omega

/-- The A block at point t, at (b, r): A at row 1024·(t / 8 % 4) + b, column r. -/
theorem ablk_apply (c : Dev nD) (t : Fin cfg0.N) (b : Fin 1024) (r : Fin 16) (Q : Fin 4096)
    (hQ : Q.val = 1024 * (t.val / 8 % 4) + b.val) :
    (iblk m c 2 t : Vec Ideal S1024x16 .f32) (ix2 b r) = m ((c : Thread nD τ).loc main_arg2) (ix2 Q r) := by
  obtain ⟨-, -, -, -, e0, e1, -⟩ := idx_facts t
  unfold iblk
  rw [View.read_apply]
  show m ((c : Thread nD τ).loc main_arg2) _ = m ((c : Thread nD τ).loc main_arg2) _
  refine congrArg _ (funext fun d => Fin.ext ?_)
  match d with
  | ⟨0, _⟩ => show win0_2.index t (0 : Fin 2) * 1024 + 1 * b.val = Q.val; rw [e0, hQ]; omega
  | ⟨1, _⟩ => show win0_2.index t (1 : Fin 2) * 16 + 1 * r.val = r.val; rw [e1]; omega

/-- The B block at point t, at (r, k): B at row r, column 512·(t % 8) + k. -/
theorem bblk_apply (c : Dev nD) (t : Fin cfg0.N) (r : Fin 16) (k : Fin 512) (K : Fin 4096)
    (hK : K.val = 512 * (t.val % 8) + k.val) :
    (iblk m c 3 t : Vec Ideal S16x512 .f32) (ix2 r k) = m ((c : Thread nD τ).loc main_arg3) (ix2 r K) := by
  obtain ⟨-, -, -, -, -, -, e0, e1⟩ := idx_facts t
  unfold iblk
  rw [View.read_apply]
  show m ((c : Thread nD τ).loc main_arg3) _ = m ((c : Thread nD τ).loc main_arg3) _
  refine congrArg _ (funext fun d => Fin.ext ?_)
  match d with
  | ⟨0, _⟩ => show win0_3.index t (0 : Fin 2) * 16 + 1 * r.val = r.val; rw [e0]; omega
  | ⟨1, _⟩ => show win0_3.index t (1 : Fin 2) * 512 + 1 * k.val = K.val; rw [e1, hK]; omega

end Cert.KernelIdeal.Blocks

end
-- ==== Proof.TilePayload.lean ====
/-
  What one grid point adds to its output block, entry by entry, at the ideal values.

  The body narrows its three input blocks (a change of format is the identity on the extended reals), forms the
  correction tile  corr (b, k) = ∑ r, a (b, r) · bb (r, k)  (a [1024,16] by [16,512] product from zero), adds it to the
  weight block, and contracts the x block [2048,512] with that sum [1024,512] along their SHARED second axis — so the
  product's entry (a, b) pairs row a of the x block with row b of the corrected weight block — from zero, and adds the
  result to what the block held. Hence at (a, b):
      acc (a, b) + ∑ k, xb (a, k) · (wb (b, k) + ∑ r, ab (b, r) · bb (r, k)).
  The first point of a run stores zeros first, so there the accumulator is 0.
-/
import proofs.«136592_j76072460747085_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ## The correction product's operand indices: [1024,16] × [16,512], contracting 1 with 0 -/

theorem lhs_corr_0 (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lhs_corr_1 (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q
theorem rhs_corr_0 (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q
theorem rhs_corr_1 (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-- The correction tile at (b, k): row b of the A block against column k of the B block. -/
theorem corr_apply (ab : FVec Ideal S1024x16 .bf16) (bb : FVec Ideal S16x512 .bf16) (b : Fin 1024) (k : Fin 512) :
    matmul dot_S1024x16_S16x512_S1024x512_1_0_0_1_n_n none ab bb (constant S1024x512 .f32 0x00000000#32) (ix2 b k)
      = ∑ r : Fin 16, ab (ix2 b r) * bb (ix2 r k) := by
  simp only [matmul]
  rw [Ideal.matmul_constant_zero_apply, ← Equiv.sum_comp (contrEquiv1 dot_S1024x16_S16x512_S1024x512_1_0_0_1_n_n 16 rfl rfl).symm]
  refine Finset.sum_congr rfl fun r _ => ?_
  have hr := contrEquiv1_symm_val dot_S1024x16_S16x512_S1024x512_1_0_0_1_n_n 16 rfl rfl r
  have el : dot_S1024x16_S16x512_S1024x512_1_0_0_1_n_n.lhsIdx (ix2 b k) ((contrEquiv1 dot_S1024x16_S16x512_S1024x512_1_0_0_1_n_n 16 rfl rfl).symm r) = ix2 b r := funext fun a => Fin.ext (by
    match a with
    | ⟨0, _⟩ => exact lhs_corr_0 _ _
    | ⟨1, _⟩ => exact (lhs_corr_1 _ _).trans hr)
  have er : dot_S1024x16_S16x512_S1024x512_1_0_0_1_n_n.rhsIdx (ix2 b k) ((contrEquiv1 dot_S1024x16_S16x512_S1024x512_1_0_0_1_n_n 16 rfl rfl).symm r) = ix2 r k := funext fun a => Fin.ext (by
    match a with
    | ⟨0, _⟩ => exact (rhs_corr_0 _ _).trans hr
    | ⟨1, _⟩ => exact rhs_corr_1 _ _)
  rw [el, er]

/-! ## The main product's operand indices: [2048,512] × [1024,512], contracting 1 with 1 -/

theorem lhs_main_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_main_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_main_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_main_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The main product at (a, b): row a of the x block against ROW b of the right operand (both second axes contracted). -/
theorem main_apply (xb : FVec Ideal S2048x512 .bf16) (wb : FVec Ideal S1024x512 .bf16) (a : Fin 2048) (b : Fin 1024) :
    matmul dot_S2048x512_S1024x512_S2048x1024_1_1_0_0_n_n none xb wb (constant S2048x1024 .f32 0x00000000#32) (ix2 a b)
      = ∑ k : Fin 512, xb (ix2 a k) * wb (ix2 b k) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 a b) ((contrEquiv1 dot_S2048x512_S1024x512_S2048x1024_1_1_0_0_n_n 512 rfl rfl).symm k) = ix2 a k := funext fun d => Fin.ext (by
    match d with
    | ⟨0, _⟩ => exact lhs_main_0 _ _
    | ⟨1, _⟩ => exact (lhs_main_1 _ _).trans hk)
  have er : dot_S2048x512_S1024x512_S2048x1024_1_1_0_0_n_n.rhsIdx (ix2 a b) ((contrEquiv1 dot_S2048x512_S1024x512_S2048x1024_1_1_0_0_n_n 512 rfl rfl).symm k) = ix2 b k := funext fun d => Fin.ext (by
    match d with
    | ⟨0, _⟩ => exact rhs_main_0 _ _
    | ⟨1, _⟩ => exact (rhs_main_1 _ _).trans hk)
  rw [el, er]

/-! ## The payloads -/

/-- The zeros the first point of a run stores. -/
theorem zeros_apply (y : S2048x1024.Idx) : k0_pay1 (F := Ideal) y = 0 := by
  unfold k0_pay1
  show Ideal.ofBits .f32 0x00000000#32 = 0
  exact Ideal.ofBits_zero_f32

/-- What a point leaves in the output block at (a, b): what it held plus the tile's sum. -/
theorem update_apply (xb : Vec Ideal S2048x512 .f32) (ab : Vec Ideal S1024x16 .f32) (bb : Vec Ideal S16x512 .f32)
    (wb : Vec Ideal S1024x512 .f32) (acc : Vec Ideal S2048x1024 .f32) (a : Fin 2048) (b : Fin 1024) :
    k0_pay2 (F := Ideal) xb ab bb wb acc (ix2 a b)
      = acc (ix2 a b) + ∑ k : Fin 512, xb (ix2 a k) * (wb (ix2 b k) + ∑ r : Fin 16, ab (ix2 b r) * bb (ix2 r k)) := by
  unfold k0_pay2
  rw [addf_apply, shapeCast_self, main_apply]
  refine congrArg (acc (ix2 a b) + ·) (Finset.sum_congr rfl fun k _ => ?_)
  rw [truncf_apply, truncf_apply, addf_apply, corr_apply]
  rfl

end Cert.KernelIdeal.Tile

end
-- ==== Proof.Fold.lean ====
/-
  The array the kernel leaves is the specification.

  Output block (i, j) is visited by the run of eight consecutive points 8·R … 8·R + 7 with R = 4·i + j. The first
  stores zeros and adds its tile's sum; each later point adds its own tile's sum to what the block held. So after the
  run the block holds, at local (a, b),  0 + ∑ s < 8, (tile s's sum), and tile s's sum — by where the four input blocks
  sit in their arrays — is the sum over the 512 contracted coordinates 512·s … of the specification's terms at row
  2048·i + a, column 1024·j + b. The eight tiles' sums together are the specification's whole sum.
-/
import proofs.«136592_j76072460747085_1_alg».proof.Proof.Blocks
import proofs.«136592_j76072460747085_1_alg».proof.Proof.TilePayload
import proofs.«136592_j76072460747085_1_alg».proof.Proof.LoraSpec

noncomputable section

namespace Cert.KernelIdeal.Fold

open Cert.KernelIdeal Cert.KernelIdeal.Gen Idealize.ShloMosaic Idealize.ShloMosaic.TcCoe Idealize.SL.Sem Idealize.ShloMosaic.ValueIdx
open scoped BigOperators

variable (m : (ℓ : Loc nD τ sig) → Buf (Elt Ideal) ℓ)

/-- The specification's term does not care how its three coordinates are spelled. -/
theorem term_congr (X : (⟨2, ![8192, 4096]⟩ : Shape).Idx → EReal) (W : (⟨2, ![4096, 4096]⟩ : Shape).Idx → EReal)
    (A : (⟨2, ![4096, 16]⟩ : Shape).Idx → EReal) (B : (⟨2, ![16, 4096]⟩ : Shape).Idx → EReal)
    (p p' : Fin 8192) (q q' : Fin 4096) (k k' : Fin 4096) (hp : p.val = p'.val) (hq : q.val = q'.val) (hk : k.val = k'.val) :
    LoraSpec.term X W A B p q k = LoraSpec.term X W A B p' q' k' := by
  obtain rfl := Fin.ext hp
  obtain rfl := Fin.ext hq
  obtain rfl := Fin.ext hk
  rfl

/-- WHAT POINT `n` ADDS at local index `y` of its output block: the sum of the specification's terms of row
    2048·(n / 32) + y₀, column 1024·(n / 8 % 4) + y₁ over the 512 contracted coordinates of tile n % 8 (zero past the grid). -/
def addend (c : Dev nD) (n : ℕ) (y : S2048x1024.Idx) : EReal :=
  if h : n < 128 then
    ∑ k : Fin 512, LoraSpec.term (m ((c : Thread nD τ).loc main_arg0)) (m ((c : Thread nD τ).loc main_arg1))
      (m ((c : Thread nD τ).loc main_arg2)) (m ((c : Thread nD τ).loc main_arg3))
      ⟨2048 * (n / 32) + (y 0).val, by have := idx2_lt0 y; omega⟩
      ⟨1024 * (n / 8 % 4) + (y 1).val, by have := idx2_lt1 y; omega⟩
      ⟨512 * (n % 8) + k.val, by have := k.isLt; omega⟩
  else 0

/-- The body's update at point `n`, on the point's own input blocks: what the block held plus the point's addend. -/
theorem point_apply (c : Dev nD) (n : ℕ) (h : n < cfg0.N) (acc : Vec Ideal S2048x1024 .f32) (y : S2048x1024.Idx) :
    k0_pay2 (F := Ideal) (iblk m c 0 ⟨n, h⟩) (iblk m c 2 ⟨n, h⟩) (iblk m c 3 ⟨n, h⟩) (iblk m c 1 ⟨n, h⟩) acc y
      = acc y + addend m c n y := by
  have hN : n < 128 := lt_of_lt_of_eq h (show cfg0.N = 128 from N_0)
  obtain ⟨a, b, rfl⟩ : ∃ (a : Fin 2048) (b : Fin 1024), y = ix2 a b := ⟨y 0, y 1, eq_ix2 y⟩
  rw [Tile.update_apply]
  unfold addend
  rw [dif_pos hN]
  refine congrArg (acc (ix2 a b) + ·) (Finset.sum_congr rfl fun k _ => ?_)
  unfold LoraSpec.term
  rw [Blocks.xblk_apply m c ⟨n, h⟩ a k ⟨2048 * (n / 32) + a.val, by have := a.isLt; omega⟩ ⟨512 * (n % 8) + k.val, by have := k.isLt; omega⟩ rfl rfl,
    Blocks.wblk_apply m c ⟨n, h⟩ b k ⟨1024 * (n / 8 % 4) + b.val, by have := b.isLt; omega⟩ ⟨512 * (n % 8) + k.val, by have := k.isLt; omega⟩ rfl rfl]
  refine congrArg _ (congrArg _ (Finset.sum_congr rfl fun r _ => ?_))
  rw [Blocks.ablk_apply m c ⟨n, h⟩ b r ⟨1024 * (n / 8 % 4) + b.val, by have := b.isLt; omega⟩ rfl,
    Blocks.bblk_apply m c ⟨n, h⟩ r k ⟨512 * (n % 8) + k.val, by have := k.isLt; omega⟩ rfl]

/-- A run's first point: zeros, plus its addend. -/
theorem reset_apply (c : Dev nD) (n : ℕ) (h : n < cfg0.N) (y : S2048x1024.Idx) :
    Value.reset4 m c n h y = 0 + addend m c n y := by
  unfold Value.reset4
  rw [point_apply, Tile.zeros_apply]

/-- A later point: what the point before left, plus its addend. -/
theorem step_apply (c : Dev nD) (n : ℕ) (h : n < cfg0.N) (acc : Vec Ideal S2048x1024 .f32) (y : S2048x1024.Idx) :
    Value.step4 m c n h acc y = acc y + addend m c n y := by
  unfold Value.step4
  exact point_apply m c n h acc y

/-- After a run of eight points from `b`, the block holds the eight addends' sum. -/
theorem fold_apply (c : Dev nD) (b : ℕ) (h : b + 7 < cfg0.N) (y : S2048x1024.Idx) :
    Pipeline.accAt (Value.reset4 m c) (Value.step4 m c) b 7 h y = 0 + ∑ s ∈ Finset.range (7 + 1), addend m c (b + s) y :=
  Pipeline.accAt_add_apply (ι := S2048x1024.Idx) (β := EReal) (Value.reset4 m c) (Value.step4 m c) (fun _ => 0) (addend m c) b 7
    (fun h i => reset_apply m c b h i) (fun n h acc i _ _ => step_apply m c n h acc i) 7 le_rfl h y

/-- THE ARRAY the kernel leaves, at (p, q): the specification's entry. -/
theorem result_apply (c : Dev nD) (i : S8192x4096.Idx) :
    @Eq EReal (Value.G4 m c i) (LoraSpec.out (m ((c : Thread nD τ).loc main_arg0)) (m ((c : Thread nD τ).loc main_arg1))
      (m ((c : Thread nD τ).loc main_arg2)) (m ((c : Thread nD τ).loc main_arg3)) i) := by
  have hp : (i 0).val < 8192 := idx2_lt0 i
  have hq : (i 1).val < 4096 := idx2_lt1 i
  have hN : cfg0.N = 128 := N_0
  have hR : Value.run4Of i = 4 * ((i 0).val / 2048 - 0) + 1 * ((i 1).val / 1024 - 0) := rfl
  unfold Value.G4
  rw [dif_pos (by rw [hN, hR]; omega)]
  rw [fold_apply, zero_add, Finset.sum_range]
  refine Eq.trans ?_ (LoraSpec.lora_tiles _ _ _ _ _ _).symm
  refine Finset.sum_congr rfl fun s _ => ?_
  have hs := s.isLt
  unfold addend
  rw [dif_pos (by rw [hR]; omega)]
  refine Finset.sum_congr rfl fun k _ => ?_
  have hk := k.isLt
  refine term_congr _ _ _ _ _ _ _ _ _ _ ?_ ?_ ?_
  · show 2048 * ((8 * Value.run4Of i + s.val) / 32) + (i 0).val % 2048 = (i 0).val
    rw [hR]; omega
  · show 1024 * ((8 * Value.run4Of i + s.val) / 8 % 4) + (i 1).val % 1024 = (i 1).val
    rw [hR]; omega
  · show 512 * ((8 * Value.run4Of i + s.val) % 8) + k.val = 512 * s.val + k.val
    rw [hR]; omega

end Cert.KernelIdeal.Fold

end
-- ==== Proof.lean ====
/-
  A low-rank-corrected linear map, K-tiled on a 4 × 4 × 8 grid, against its plain reference.

  Both programs compute, for x [8192,4096], W [4096,4096], A [4096,16], B [16,4096],
      out (p, q) = ∑ k, x (p, k) · (W (q, k) + ∑ r, A (q, r) · B (r, k)).
  The reference forms W + A·B whole, transposes it and multiplies. The kernel visits output block (i, j) at eight
  consecutive grid points, one per tile of 512 contracted coordinates: it zeroes the block at the first, and at each
  adds the tile's partial product, with the correction A·B recomputed for the tile. On the extended reals the
  narrowing of the operands is the identity and each matrix product is an exact finite sum, so the block ends holding
  0 + ∑ s < 8, ∑ k < 512 of the same terms the reference sums over k < 4096 at once. The two agree by re-indexing one
  finite sum (coordinate 512·s + k is coordinate k of tile s); nothing is distributed or cancelled, so the inputs'
  finiteness is never used.

  LoraSpec: the entry and the tile law. RefRead: the reference at an index is the entry. TilePayload: what one point
  adds, at an index. Blocks: where the input blocks sit. Fold: the kernel's final array is the entry.
-/
import proofs.«136592_j76072460747085_1_alg».proof.Defs
import proofs.«136592_j76072460747085_1_alg».proof.Proof.Gen.Kernel.Frame
import proofs.«136592_j76072460747085_1_alg».proof.Proof.Gen.KernelIdeal.Value
import proofs.«136592_j76072460747085_1_alg».proof.Proof.Gen.Pre_finite_inputs
import proofs.«136592_j76072460747085_1_alg».proof.Proof.Gen.ReferenceIdeal.Run
import proofs.«136592_j76072460747085_1_alg».proof.Proof.RefRead
import proofs.«136592_j76072460747085_1_alg».proof.Proof.Fold
import Idealize.ShloMosaic.Adequacy
import Idealize.ShloMosaic.Init

noncomputable section

namespace Cert.Proof

open Idealize.ShloMosaic Idealize.SL.Sem

/-- The idealized kernel terminates, faults nowhere and leaves its arguments as they were: its value run, weakened. -/
theorem frame_KernelIdeal : frame_KernelIdeal := fun m ρ _ =>
  (θ_run Cert.KernelIdeal.defs _ _).mono (fun _ h c => (h c).2) (Cert.KernelIdeal.Value.run (F := Ideal) m ρ)

/-- The same of the reference: its run, weakened. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on x, W, A and B both programs end with the same array: each entry is the specification's. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  exact (Cert.ReferenceIdeal.RefValue.result_apply _ _ _ _ i).trans (Cert.KernelIdeal.Fold.result_apply m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
